-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2457600x4 : Shape := ⟨2, ![2457600, 4]⟩
abbrev S_ : Shape := ⟨0, ![]⟩

class Facts : Prop where
  bcast_S_S2457600x4 : S_.BroadcastsInDim S2457600x4 (![] : Fin 0 → Fin S2457600x4.rank)
  reducesTo_S2457600x4_S_d0_1 : S2457600x4.ReducesTo [0, 1] S_
  h_S_ : 0 < S_.numel

variable [Facts]

def fn {F : FTy → Type} [FloatOps F] (main_arg0 : FVec F S2457600x4 .f32) (main_arg1 : FVec F S2457600x4 .f32) : IVec S_ 1 :=
  let main_v0 : FVec F S2457600x4 .f32 := Host.absf main_arg0
  let main_cst : FVec F S_ .f32 := constant S_ .f32 0x7F800000#32
  let main_v1 : FVec F S2457600x4 .f32 := broadcastInDim S2457600x4 ![] bcast_S_S2457600x4 main_cst
  let main_v2 : IVec S2457600x4 1 := cmpf .olt main_v0 main_v1
  let main_c : IVec S_ 1 := constantI S_ 1 1#1
  let main_v3 : IVec S_ 1 := (fun x v => Host.reduce IntOp.andi x v reducesTo_S2457600x4_S_d0_1 h_S_) main_v2 main_c
  let main_v4 : FVec F S2457600x4 .f32 := Host.absf main_arg1
  let main_cst_0 : FVec F S_ .f32 := constant S_ .f32 0x7F800000#32
  let main_v5 : FVec F S2457600x4 .f32 := broadcastInDim S2457600x4 ![] bcast_S_S2457600x4 main_cst_0
  let main_v6 : IVec S2457600x4 1 := cmpf .olt main_v4 main_v5
  let main_c_1 : IVec S_ 1 := constantI S_ 1 1#1
  let main_v7 : IVec S_ 1 := (fun x v => Host.reduce IntOp.andi x v reducesTo_S2457600x4_S_d0_1 h_S_) main_v6 main_c_1
  let main_v8 : IVec S_ 1 := andi main_v3 main_v7
  main_v8
-- ==== Kernel.lean ====
abbrev S2457600x4 : Shape := ⟨2, ![2457600, 4]⟩
abbrev S4096x4 : Shape := ⟨2, ![4096, 4]⟩
abbrev S4096x2 : Shape := ⟨2, ![4096, 2]⟩

abbrev nBuf : Space → Nat
  | .hbm => 3
  | .vmem => 6
  | .smem => 0
  | _ => 0

abbrev bufTy : (tb : Table) → Fin (tcTables nBuf tb) → BufTy
  | .hbm, ⟨0, _⟩ => ⟨S2457600x4, .f32⟩
  | .hbm, ⟨1, _⟩ => ⟨S2457600x4, .f32⟩
  | .hbm, ⟨2, _⟩ => ⟨S2457600x4, .f32⟩
  | .local _ .vmem, ⟨0, _⟩ => ⟨S4096x4, .f32⟩
  | .local _ .vmem, ⟨1, _⟩ => ⟨S4096x4, .f32⟩
  | .local _ .vmem, ⟨2, _⟩ => ⟨S4096x4, .f32⟩
  | .local _ .vmem, ⟨3, _⟩ => ⟨S4096x4, .f32⟩
  | .local _ .vmem, ⟨4, _⟩ => ⟨S4096x4, .f32⟩
  | .local _ .vmem, ⟨5, _⟩ => ⟨S4096x4, .f32⟩
  | _, _ => ⟨S2457600x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![600], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S4096x4_S4096x4_0_0 : ∀ a, (![0, 0] : Fin 2 → Nat) a + S4096x4.size a ≤ S4096x4.size a
  h_S4096x4 : 0 < S4096x4.numel
  slices_S4096x4_o0_0_S4096x2 : S4096x4.Slices ![0, 0] S4096x2
  slices_S4096x4_o0_2_S4096x2 : S4096x4.Slices ![0, 2] S4096x2
  concatenates_S4096x2_S4096x2_S4096x4_d1 : Shape.Concatenates [S4096x2, S4096x2] S4096x4 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x4.size a ≤ S2457600x4.size a
  hwx0_0 : ∀ i : grid0.Coords, EltTy.bits .f32 = 32 ∨ (Rect.block (s := S2457600x4) S4096x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x4.size a ≤ S2457600x4.size a
  hwx0_1 : ∀ i : grid0.Coords, EltTy.bits .f32 = 32 ∨ (Rect.block (s := S2457600x4) S4096x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x4.size a ≤ S2457600x4.size a
  hwx0_2 : ∀ i : grid0.Coords, EltTy.bits .f32 = 32 ∨ (Rect.block (s := S2457600x4) S4096x4.size (cc0_transform_2 i) (hinb0_2 i)).WholeWords (EltTy.packing .f32)

variable [Facts₀]

abbrev win0_0 : Pipeline.Window sig grid0 :=
  Pipeline.Window.ofSpec (Memref.whole main_arg0) S4096x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4096x4.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2457600x4 : Shape := ⟨2, ![2457600, 4]⟩
abbrev S2457600x2 : Shape := ⟨2, ![2457600, 2]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2457600x4, .f32⟩
  | .hbm, ⟨1, _⟩ => ⟨S2457600x4, .f32⟩
  | .hbm, ⟨2, _⟩ => ⟨S2457600x2, .f32⟩
  | .hbm, ⟨3, _⟩ => ⟨S2457600x2, .f32⟩
  | .hbm, ⟨4, _⟩ => ⟨S_, .f32⟩
  | .hbm, ⟨5, _⟩ => ⟨S2457600x2, .f32⟩
  | .hbm, ⟨6, _⟩ => ⟨S2457600x2, .f32⟩
  | .hbm, ⟨7, _⟩ => ⟨S2457600x4, .f32⟩
  | .hbm, ⟨8, _⟩ => ⟨S_, .f32⟩
  | .hbm, ⟨9, _⟩ => ⟨S2457600x4, .f32⟩
  | .hbm, ⟨10, _⟩ => ⟨S2457600x4, .i1⟩
  | .hbm, ⟨11, _⟩ => ⟨S2457600x2, .f32⟩
  | .hbm, ⟨12, _⟩ => ⟨S2457600x2, .f32⟩
  | .hbm, ⟨13, _⟩ => ⟨S2457600x2, .f32⟩
  | .hbm, ⟨14, _⟩ => ⟨S_, .f32⟩
  | .hbm, ⟨15, _⟩ => ⟨S2457600x2, .f32⟩
  | .hbm, ⟨16, _⟩ => ⟨S2457600x2, .f32⟩
  | .hbm, ⟨17, _⟩ => ⟨S2457600x2, .f32⟩
  | .hbm, ⟨18, _⟩ => ⟨S2457600x2, .f32⟩
  | .hbm, ⟨19, _⟩ => ⟨S2457600x2, .f32⟩
  | .hbm, ⟨20, _⟩ => ⟨S2457600x2, .f32⟩
  | .hbm, ⟨21, _⟩ => ⟨S2457600x2, .f32⟩
  | .hbm, ⟨22, _⟩ => ⟨S2457600x2, .f32⟩
  | .hbm, ⟨23, _⟩ => ⟨S2457600x2, .f32⟩
  | .hbm, ⟨24, _⟩ => ⟨S_, .f32⟩
  | .hbm, ⟨25, _⟩ => ⟨S2457600x2, .f32⟩
  | .hbm, ⟨26, _⟩ => ⟨S2457600x2, .f32⟩
  | .hbm, ⟨27, _⟩ => ⟨S2457600x2, .f32⟩
  | .hbm, ⟨28, _⟩ => ⟨S_, .f32⟩
  | .hbm, ⟨29, _⟩ => ⟨S2457600x2, .f32⟩
  | .hbm, ⟨30, _⟩ => ⟨S2457600x2, .f32⟩
  | .hbm, ⟨31, _⟩ => ⟨S2457600x2, .f32⟩
  | .hbm, ⟨32, _⟩ => ⟨S2457600x4, .f32⟩
  | .hbm, ⟨33, _⟩ => ⟨S2457600x4, .i1⟩
  | .hbm, ⟨34, _⟩ => ⟨S2457600x4, .f32⟩
  | .hbm, ⟨35, _⟩ => ⟨S2457600x4, .f32⟩
  | .hbm, ⟨36, _⟩ => ⟨S2457600x4, .f32⟩
  | .hbm, ⟨37, _⟩ => ⟨S_, .f32⟩
  | .hbm, ⟨38, _⟩ => ⟨S2457600x4, .f32⟩
  | .hbm, ⟨39, _⟩ => ⟨S2457600x4, .f32⟩
  | .hbm, ⟨40, _⟩ => ⟨S2457600x4, .f32⟩
  | _, _ => ⟨S2457600x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_3 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_4 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩

abbrev nD : Nat := 1
abbrev τ : Topo := Topo.v7x

variable {F : FTy → Type} [FloatOps F]

class Facts₀ : Prop where
  slices_S2457600x4_S2457600x2_0_0 : S2457600x4.Slices ![0, 0] S2457600x2
  slices_S2457600x4_S2457600x2_0_2 : S2457600x4.Slices ![0, 2] S2457600x2
  bcast_S_S2457600x2 : S_.BroadcastsInDim S2457600x2 (![] : Fin 0 → Fin S2457600x2.rank)
  concatenates_S2457600x2_S2457600x2_S2457600x4_d1 : Shape.Concatenates [S2457600x2, S2457600x2] S2457600x4 1
  bcast_S_S2457600x4 : S_.BroadcastsInDim S2457600x4 (![] : Fin 0 → Fin S2457600x4.rank)

variable [Facts₀]

class Facts : Prop extends Facts₀ where

variable [Facts]
-- ==== Proof.Entry.lean ====
/-
  One decoded box, entry by entry, on the extended reals.

  Row `r` of the result depends only on row `r` of the two inputs. On one axis (x or y), with `dx` and `dw` the
  row's two offsets for that axis (columns `j` and `j + 2` of the deltas) and `a₀`, `a₁` the anchor's two corners
  on it (columns `j` and `j + 2` of the anchors):
    centre  = (a₀ + a₁) · ½ + (a₁ − a₀) · dx
    extent  = (a₁ − a₀) · exp (min dw L)            (L the clamp bound, the single-precision value of log 28)
    corners = centre ∓ extent · ½.
  Columns 0, 1 of the result hold the low corners of the two axes and columns 2, 3 the high corners; an entry
  whose own offset (`dx` under a low corner, the clamped `dw` under a high corner) lies below the threshold
  −10⁷ is replaced by the sentinel −10⁸.

  One program halves the extent by the product with ½ and replaces an entry by a select; the other halves by
  the quotient by 2 and blends `value · [not masked] + sentinel · [masked]` with the mask read as 0 or 1. Both
  differences are identities on every extended real (`div_two`, `blend`): no finiteness is used.
-/
import Idealize.ShloMosaic.PureOps.Ideal
import Idealize.ShloMosaic.Lib.ValueIdx

noncomputable section

namespace Cert.Boxes

open Idealize.ShloMosaic Idealize.ShloMosaic.ValueIdx

/-! ## The constants the two programs spell -/

/-- The clamp bound on a size offset: the single-precision value of `log 28`. It is never evaluated: both
    programs carry the same word. -/
abbrev clampBound : EReal := Ideal.ofBits .f32 0x405542D7#32
/-- `0.5`. -/
abbrev half : EReal := Ideal.ofBits .f32 0x3F000000#32
/-- `2.0`. -/
abbrev two : EReal := Ideal.ofBits .f32 0x40000000#32
/-- `−10⁷`, below which an offset marks its entry as masked. -/
abbrev threshold : EReal := Ideal.ofBits .f32 0xCB189680#32
/-- `−10⁸`, what a masked entry holds. -/
abbrev sentinel : EReal := Ideal.ofBits .f32 0xCCBEBC20#32

/-- The word of `2.0` denotes the real `2`. -/
theorem two_eq : two = ((2 : ℝ) : EReal) := by
  simp [two, Ideal.ofBits, Ideal.ieee, -EReal.coe_mul]; norm_num

/-- The word of `0.5` denotes the real `1/2`. -/
theorem half_eq : half = ((1 / 2 : ℝ) : EReal) := by
  simp [half, Ideal.ofBits, Ideal.ieee, -EReal.coe_mul]; norm_num

/-- Halving by the quotient by `2` is halving by the product with `½`, on every extended real. -/
theorem div_two (y : EReal) : Ideal.div y two = y * half := by
  rw [two_eq, half_eq]; exact Ideal.div_coe (by norm_num) y

/-- Blending with a one-bit mask read as `0` or `1` is selecting: `x · [not b] + v · [b]` is `v` where the bit
    is set and `x` where it is clear, on every extended real (`x · 0 = 0` also at the infinities). -/
theorem blend (b : BitVec 1) (x v : EReal) :
    x * (((~~~b).toNat : ℝ) : EReal) + v * ((b.toNat : ℝ) : EReal) = Scalar.select b v x := by
  rcases (by decide : ∀ b : BitVec 1, b = 0#1 ∨ b = 1#1) b with rfl | rfl
  · simp [Scalar.select]
  · simp [Scalar.select]

/-! ## One axis of one box -/

/-- The decoded centre on one axis. -/
def centre (dx a₀ a₁ : EReal) : EReal := (a₀ + a₁) * half + (a₁ - a₀) * dx

/-- The decoded extent on one axis, its size offset clamped from above. -/
def extent (dw a₀ a₁ : EReal) : EReal := (a₁ - a₀) * Ideal.exp (min dw clampBound)

/-- The low corner's entry: masked by the position offset. -/
def lowCorner (dx dw a₀ a₁ : EReal) : EReal :=
  Scalar.select (Ideal.cmp .olt dx threshold) sentinel (centre dx a₀ a₁ - extent dw a₀ a₁ * half)

/-- The high corner's entry: masked by the clamped size offset. -/
def highCorner (dx dw a₀ a₁ : EReal) : EReal :=
  Scalar.select (Ideal.cmp .olt (min dw clampBound) threshold) sentinel (centre dx a₀ a₁ + extent dw a₀ a₁ * half)

/-- The low corner as the blending program computes it. -/
theorem lowCorner_blend (dx dw a₀ a₁ : EReal) :
    (centre dx a₀ a₁ - Ideal.div (extent dw a₀ a₁) two) * (((~~~(Ideal.cmp .olt dx threshold)).toNat : ℝ) : EReal)
      + sentinel * (((Ideal.cmp .olt dx threshold).toNat : ℝ) : EReal) = lowCorner dx dw a₀ a₁ := by
  rw [div_two, blend]; rfl

/-- The high corner as the blending program computes it. -/
theorem highCorner_blend (dx dw a₀ a₁ : EReal) :
    (centre dx a₀ a₁ + Ideal.div (extent dw a₀ a₁) two) * (((~~~(Ideal.cmp .olt (min dw clampBound) threshold)).toNat : ℝ) : EReal)
      + sentinel * (((Ideal.cmp .olt (min dw clampBound) threshold).toNat : ℝ) : EReal) = highCorner dx dw a₀ a₁ := by
  rw [div_two, blend]; rfl

/-! ## A row, and an array of rows -/

/-- One row of the result from the same row of the two inputs: column `q < 2` is the low corner on axis `q`,
    column `q ≥ 2` the high corner on axis `q − 2`; axis `j` pairs columns `j` and `j + 2`. -/
def decodeRow (d a : Fin 4 → EReal) (q : Fin 4) : EReal :=
  if h : q.val < 2 then lowCorner (d q) (d ⟨q.val + 2, by omega⟩) (a q) (a ⟨q.val + 2, by omega⟩)
  else highCorner (d ⟨q.val - 2, by omega⟩) (d q) (a ⟨q.val - 2, by omega⟩) (a q)

theorem decodeRow_low (d a : Fin 4 → EReal) (j : Fin 2) :
    decodeRow d a ⟨j.val, by omega⟩
      = lowCorner (d ⟨j.val, by omega⟩) (d ⟨j.val + 2, by omega⟩) (a ⟨j.val, by omega⟩) (a ⟨j.val + 2, by omega⟩) := by
  unfold decodeRow; rw [dif_pos (show j.val < 2 from j.isLt)]

theorem decodeRow_high (d a : Fin 4 → EReal) (j : Fin 2) :
    decodeRow d a ⟨j.val + 2, by omega⟩
      = highCorner (d ⟨j.val, by omega⟩) (d ⟨j.val + 2, by omega⟩) (a ⟨j.val, by omega⟩) (a ⟨j.val + 2, by omega⟩) := by
  unfold decodeRow; rw [dif_neg (show ¬(j.val + 2 < 2) by omega)]
  have e : (⟨j.val + 2 - 2, by omega⟩ : Fin 4) = ⟨j.val, by omega⟩ := Fin.ext (by show j.val + 2 - 2 = j.val; omega)
  simp only [e]

/-- A column is a low-corner column of some axis or a high-corner column of some axis. -/
theorem column_cases (q : Fin 4) :
    (∃ j : Fin 2, q = ⟨j.val, by omega⟩) ∨ (∃ j : Fin 2, q = ⟨j.val + 2, by omega⟩) := by
  by_cases h : q.val < 2
  · exact .inl ⟨⟨q.val, h⟩, rfl⟩
  · exact .inr ⟨⟨q.val - 2, by omega⟩, Fin.ext (by show q.val = q.val - 2 + 2; omega)⟩

/-- The decoded boxes of an array of `n` rows: every row decoded from the same row of the inputs. -/
def decode {n : Nat} (d a : (⟨2, ![n, 4]⟩ : Shape).Idx → EReal) : (⟨2, ![n, 4]⟩ : Shape).Idx → EReal :=
  fun i => decodeRow (fun c => d (ix2 (i 0) c)) (fun c => a (ix2 (i 0) c)) (i 1)

theorem decode_apply {n : Nat} (d a : (⟨2, ![n, 4]⟩ : Shape).Idx → EReal) (p : Fin n) (q : Fin 4) :
    decode d a (ix2 p q) = decodeRow (fun c => d (ix2 p c)) (fun c => a (ix2 p c)) q := rfl

/-- The decoded entry depends only on the entry's column and on the entry's row of the two inputs: two arrays (of any
    heights) whose rows `i 0` and `i' 0` agree decode alike there. -/
theorem decode_congr {n n' : Nat} (d a : (⟨2, ![n, 4]⟩ : Shape).Idx → EReal) (d' a' : (⟨2, ![n', 4]⟩ : Shape).Idx → EReal)
    (i : (⟨2, ![n, 4]⟩ : Shape).Idx) (i' : (⟨2, ![n', 4]⟩ : Shape).Idx)
    (hq : (i 1 : Fin 4).val = (i' 1 : Fin 4).val)
    (hd : ∀ c : Fin 4, d (ix2 (i 0) c) = d' (ix2 (i' 0) c)) (ha : ∀ c : Fin 4, a (ix2 (i 0) c) = a' (ix2 (i' 0) c)) :
    decode d a i = decode d' a' i' := by
  have hd' : (fun c : Fin 4 => d (ix2 (i 0) c)) = fun c => d' (ix2 (i' 0) c) := funext hd
  have ha' : (fun c : Fin 4 => a (ix2 (i 0) c)) = fun c => a' (ix2 (i' 0) c) := funext ha
  have e1 : (i 1 : Fin 4) = (i' 1 : Fin 4) := Fin.ext hq
  show decodeRow (fun c : Fin 4 => d (ix2 (i 0) c)) (fun c : Fin 4 => a (ix2 (i 0) c)) (i 1 : Fin 4)
    = decodeRow (fun c : Fin 4 => d' (ix2 (i' 0) c)) (fun c : Fin 4 => a' (ix2 (i' 0) c)) (i' 1 : Fin 4)
  rw [hd', ha', e1]

end Cert.Boxes

end
-- ==== Proof.Halves.lean ====
/-
  A four-column array split into its column pairs and joined again, read entry by entry.

  The two programs cut an `n × 4` array into its left half (columns 0, 1) and its right half (columns 2, 3) and
  later join two `n × 2` arrays side by side. Read at row `p`: the left half's column `j` is the array's column
  `j`, the right half's column `j` is its column `j + 2`, and the join of `a` and `b` holds `a`'s column `j` in
  its column `j` and `b`'s column `j` in its column `j + 2`.
-/
import Idealize.ShloMosaic.Lib.Pipeline.Value
import Idealize.ShloMosaic.Lib.ValueIdx

noncomputable section

namespace Cert.Boxes

open Idealize.ShloMosaic Idealize.ShloMosaic.ValueIdx

variable {α : Type} {n : Nat}

/-- The left half read at `(p, j)` is the array at `(p, j)`. -/
theorem leftHalf_apply (x : (⟨2, ![n, 4]⟩ : Shape).Idx → α) (h : (⟨2, ![n, 4]⟩ : Shape).Slices ![0, 0] ⟨2, ![n, 2]⟩)
    (p : Fin n) (j : Fin 2) :
    extractStridedSlice ⟨2, ![n, 2]⟩ ![0, 0] x h (ix2 p j) = x (ix2 p ⟨j.val, by omega⟩) :=
  extractStridedSlice_apply ![0, 0] x h (ix2 p j) (ix2 p ⟨j.val, by omega⟩) (fun a => match a with
    | ⟨0, _⟩ => by show p.val = 0 + p.val; omega
    | ⟨1, _⟩ => by show j.val = 0 + j.val; omega)

/-- The right half read at `(p, j)` is the array at `(p, j + 2)`. -/
theorem rightHalf_apply (x : (⟨2, ![n, 4]⟩ : Shape).Idx → α) (h : (⟨2, ![n, 4]⟩ : Shape).Slices ![0, 2] ⟨2, ![n, 2]⟩)
    (p : Fin n) (j : Fin 2) :
    extractStridedSlice ⟨2, ![n, 2]⟩ ![0, 2] x h (ix2 p j) = x (ix2 p ⟨j.val + 2, by omega⟩) :=
  extractStridedSlice_apply ![0, 2] x h (ix2 p j) (ix2 p ⟨j.val + 2, by omega⟩) (fun a => match a with
    | ⟨0, _⟩ => by show p.val = 0 + p.val; omega
    | ⟨1, _⟩ => by show j.val + 2 = 2 + j.val; omega)

/-- The join of `a` and `b` read in its left half: `a`. -/
theorem join_left (a b : (⟨2, ![n, 2]⟩ : Shape).Idx → α)
    (h : Shape.Concatenates [(⟨2, ![n, 2]⟩ : Shape), ⟨2, ![n, 2]⟩] ⟨2, ![n, 4]⟩ 1) (p : Fin n) (j : Fin 2) :
    concatenate ⟨2, ![n, 4]⟩ 1 [⟨⟨2, ![n, 2]⟩, a⟩, ⟨⟨2, ![n, 2]⟩, b⟩] h (ix2 p ⟨j.val, by omega⟩) = a (ix2 p j) :=
  concatenate_pair_apply_left (t := ⟨2, ![n, 4]⟩) (1 : Fin 2) a b h (ix2 p ⟨j.val, by omega⟩) rfl (ix2 p j) (fun c => match c with
    | ⟨0, _⟩ => rfl
    | ⟨1, _⟩ => rfl)

/-- The join of `a` and `b` read in its right half: `b`, two columns to the left. -/
theorem join_right (a b : (⟨2, ![n, 2]⟩ : Shape).Idx → α)
    (h : Shape.Concatenates [(⟨2, ![n, 2]⟩ : Shape), ⟨2, ![n, 2]⟩] ⟨2, ![n, 4]⟩ 1) (p : Fin n) (j : Fin 2) :
    concatenate ⟨2, ![n, 4]⟩ 1 [⟨⟨2, ![n, 2]⟩, a⟩, ⟨⟨2, ![n, 2]⟩, b⟩] h (ix2 p ⟨j.val + 2, by omega⟩) = b (ix2 p j) :=
  concatenate_pair_apply_right (t := ⟨2, ![n, 4]⟩) (1 : Fin 2) a b h (ix2 p ⟨j.val + 2, by omega⟩) rfl rfl (ix2 p j)
    (fun c hc => match c, hc with
      | ⟨0, _⟩, _ => rfl
      | ⟨1, _⟩, hc => absurd rfl hc)
    (by show j.val + 2 = j.val + 2; rfl)

end Cert.Boxes

end
-- ==== Proof.KernelEntry.lean ====
/-
  What the kernel's body stores at one entry of its block, on the extended reals: the low or the high corner of the
  row's box on one axis, from the same row of the two input blocks.
-/
import proofs.«120864_j53807350284714_1_alg».proof.Proof.Gen.KernelIdeal.Value
import proofs.«120864_j53807350284714_1_alg».proof.Proof.Entry
import proofs.«120864_j53807350284714_1_alg».proof.Proof.Halves

noncomputable section

namespace Cert.KernelIdeal.Decoded

open Cert.KernelIdeal Cert.KernelIdeal.Gen Idealize.ShloMosaic Idealize.ShloMosaic.ValueIdx Cert.Boxes

/-- The exponential of a vector, entry by entry. -/
theorem exp_at {s : Shape} (x : FVec Ideal s .f32) (i : s.Idx) : Idealize.ShloMosaic.exp x i = Ideal.exp (x i) := rfl

/-- Column `j` of the stored block is the low corner on axis `j`. -/
theorem stored_low (P0 P1 : Vec Ideal S4096x4 .f32) (p : Fin 4096) (j : Fin 2) :
    k0_pay1 P0 P1 (ix2 p ⟨j.val, by omega⟩)
      = lowCorner (P0 (ix2 p ⟨j.val, by omega⟩)) (P0 (ix2 p ⟨j.val + 2, by omega⟩))
          (P1 (ix2 p ⟨j.val, by omega⟩)) (P1 (ix2 p ⟨j.val + 2, by omega⟩)) := by
  rw [Cert.KernelIdeal.Value.lay2_0_eq P0 P1]
  simp only [select_apply, cmpf_apply, broadcast_apply, join_left]
  simp only [subf_apply, addf_apply, mulf_apply, minimumf_apply, broadcast_apply, exp_at, leftHalf_apply, rightHalf_apply]
  rfl

/-- Column `j + 2` of the stored block is the high corner on axis `j`. -/
theorem stored_high (P0 P1 : Vec Ideal S4096x4 .f32) (p : Fin 4096) (j : Fin 2) :
    k0_pay1 P0 P1 (ix2 p ⟨j.val + 2, by omega⟩)
      = highCorner (P0 (ix2 p ⟨j.val, by omega⟩)) (P0 (ix2 p ⟨j.val + 2, by omega⟩))
          (P1 (ix2 p ⟨j.val, by omega⟩)) (P1 (ix2 p ⟨j.val + 2, by omega⟩)) := by
  rw [Cert.KernelIdeal.Value.lay2_0_eq P0 P1]
  simp only [select_apply, cmpf_apply, broadcast_apply, join_right]
  simp only [subf_apply, addf_apply, mulf_apply, minimumf_apply, broadcast_apply, exp_at, leftHalf_apply, rightHalf_apply]
  rfl

/-- The stored block is the decoding of the two input blocks, row by row. -/
theorem stored_eq (P0 P1 : Vec Ideal S4096x4 .f32) : k0_pay1 P0 P1 = decode (n := 4096) P0 P1 := by
  funext y
  obtain ⟨p, q, rfl⟩ : ∃ (p : Fin 4096) (q : Fin 4), y = ix2 p q := ⟨y 0, y 1, eq_ix2 y⟩
  rw [decode_apply]
  rcases column_cases q with ⟨j, rfl⟩ | ⟨j, rfl⟩
  · rw [stored_low, decodeRow_low]
  · rw [stored_high, decodeRow_high]

end Cert.KernelIdeal.Decoded

end
-- ==== Proof.KernelValue.lean ====
/-
  From blocks to the array. Grid point `t` stages rows `4096·t … 4096·t + 4095` of both inputs and writes the same
  rows of the result, all four columns; the body's block is the decoding of the staged rows, and decoding is row by
  row, so what point `t` writes back is block `t` of the decoding of the WHOLE inputs. The 600 blocks tile the
  2,457,600 rows, so the result array ends as that decoding.
-/
import proofs.«120864_j53807350284714_1_alg».proof.Proof.Gen.KernelIdeal.Value
import proofs.«120864_j53807350284714_1_alg».proof.Proof.KernelEntry

noncomputable section

namespace Cert.KernelIdeal.Decoded

open Cert.KernelIdeal Cert.KernelIdeal.Gen Idealize.ShloMosaic Idealize.ShloMosaic.TcCoe Idealize.SL.Sem
open Idealize.ShloMosaic.ValueIdx Cert.Boxes
open Idealize.ShloMosaic.Pipeline (Dat)

variable (m : (ℓ : Loc nD τ sig) → Buf (Elt Ideal) ℓ) (ρ : Dev nD → PrngReg)

/-- The body's one store starts at the block's origin. -/
theorem origin : (![0, 0] : Fin 2 → Nat) = fun _ => 0 := funext fun a => by fin_cases a <;> rfl

/-- Where the three windows' blocks sit at point `t`: block row `t`, block column `0` (decided over the 600 points). -/
theorem block_position : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0)

/-- WHAT POINT `t` WRITES BACK is block `t` of the decoding of the whole argument arrays. -/
theorem flushed_eq (c : Dev nD) (t : Fin cfg0.N) :
    (dats m 0 c).flushed 2 t
      = ((cfg0.win 2).blk t).view.read (Elt Ideal) (decode (n := 2457600) (V m c main_arg0) (V m c main_arg1)) := by
  show (cfg0.win 2).cut (grid0.coords t) ((dats m 0 c).after 2 t) = _
  rw [after0_2]
  unfold out0_2
  rw [View.canon_unit_zero origin]
  simp only [View.ld_unit_zero (S := S4096x4) origin]
  rw [stored_eq]
  obtain ⟨e00, e01, e10, e11, e20, e21⟩ := block_position t
  funext y
  show decode (n := 4096) (iblk m c 0 t) (iblk m c 1 t) y
    = decode (n := 2457600) (V m c main_arg0) (V m c main_arg1) (((cfg0.win 2).blk t).view.emb y)
  have hy0 : (y 0).val < 4096 := (y 0).isLt
  have hy1 : (y 1).val < 4 := (y 1).isLt
  refine decode_congr _ _ _ _ y _ ?_ ?_ ?_
  · show (y 1).val = win0_2.index t (1 : Fin 2) * 4 + 1 * (y 1).val
    omega
  · intro q
    show V m c main_arg0 (((cfg0.win 0).blk t).view.emb (ix2 (y 0) q)) = V m c main_arg0 (ix2 ((((cfg0.win 2).blk t).view.emb y) 0) q)
    refine congrArg _ (funext fun a => Fin.ext ?_)
    match a with
    | ⟨0, _⟩ => show win0_0.index t (0 : Fin 2) * 4096 + 1 * (y 0).val = win0_2.index t (0 : Fin 2) * 4096 + 1 * (y 0).val; omega
    | ⟨1, _⟩ => show win0_0.index t (1 : Fin 2) * 4 + 1 * q.val = q.val; omega
  · intro q
    show V m c main_arg1 (((cfg0.win 1).blk t).view.emb (ix2 (y 0) q)) = V m c main_arg1 (ix2 ((((cfg0.win 2).blk t).view.emb y) 0) q)
    refine congrArg _ (funext fun a => Fin.ext ?_)
    match a with
    | ⟨0, _⟩ => show win0_1.index t (0 : Fin 2) * 4096 + 1 * (y 0).val = win0_2.index t (0 : Fin 2) * 4096 + 1 * (y 0).val; omega
    | ⟨1, _⟩ => show win0_1.index t (1 : Fin 2) * 4 + 1 * q.val = q.val; omega

/-- An index of the result is in point `t`'s block iff each coordinate is in the block's range on its axis. -/
theorem mem_block (t : Fin cfg0.N) (i : S2457600x4.Idx) :
    i ∈ ((cfg0.win 2).blk t).view.set ↔ ∀ a : Fin 2, win0_2.index t a * S4096x4.size a ≤ (i a).val ∧ (i a).val < win0_2.index t a * S4096x4.size a + S4096x4.size a := by
  show i ∈ ((View.whole main_v0).slice (win0_2.rect t)).set ↔ _
  rw [View.set_slice_whole, Rect.mem_set_unit]
  exact Iff.rfl

/-- Every entry of the result lies in the block of the point that owns its row, `row / 4096`. -/
theorem covered (i : S2457600x4.Idx) :
    ∃ t : Fin cfg0.N, (cfg0.win 2).flush t = true ∧ i ∈ ((cfg0.win 2).blk t).view.set := by
  have hi0 : (i 0).val < 2457600 := (i 0).isLt
  have hi1 : (i 1).val < 4 := (i 1).isLt
  have hN : grid0.N = 600 := N_0
  have ht : (i 0).val / 4096 < grid0.N := by rw [hN]; omega
  obtain ⟨-, -, -, -, e20, e21⟩ := block_position ⟨(i 0).val / 4096, ht⟩
  refine ⟨⟨(i 0).val / 4096, ht⟩, flush0_2 _, ?_⟩
  rw [mem_block]
  intro a
  match a with
  | ⟨0, _⟩ =>
    show win0_2.index ⟨(i 0).val / 4096, ht⟩ (0 : Fin 2) * 4096 ≤ (i 0).val
      ∧ (i 0).val < win0_2.index ⟨(i 0).val / 4096, ht⟩ (0 : Fin 2) * 4096 + 4096
    rw [e20]; show (i 0).val / 4096 * 4096 ≤ (i 0).val ∧ (i 0).val < (i 0).val / 4096 * 4096 + 4096; omega
  | ⟨1, _⟩ =>
    show win0_2.index ⟨(i 0).val / 4096, ht⟩ (1 : Fin 2) * 4 ≤ (i 1).val
      ∧ (i 1).val < win0_2.index ⟨(i 0).val / 4096, ht⟩ (1 : Fin 2) * 4 + 4
    rw [e21]; omega

/-- THE RESULT ARRAY after the run: the decoding of the argument arrays. -/
theorem final (c : Dev nD) :
    (dats m 0 c).arrAt 2 cfg0.N
      = decode (n := 2457600) (m ((c : Thread nD τ).loc main_arg0)) (m ((c : Thread nD τ).loc main_arg1)) :=
  (dats m 0 c).arrAt_eq_of_cover 2 _ (fun t _ => flushed_eq m c t) covered

/-- The kernel's run, read: the result at the decoding of the arguments, the arguments unchanged. -/
theorem run : θ_run defs (onTc (τ := τ) (main (F := Ideal))) ⟨m, fun _ => 0, ρ⟩ fun r => ∀ c : Dev nD,
      r.2.mem ((c : Thread nD τ).loc main_v0)
        = decode (n := 2457600) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.KernelIdeal.Value.run_blocks m ρ)

end Cert.KernelIdeal.Decoded

end
-- ==== Proof.RefEntry.lean ====
/-
  What the reference computes at one entry of its result, on the extended reals: the same low or high corner, the
  extent halved by a quotient and the masked entries blended in by products with the mask read as 0 or 1.
-/
import proofs.«120864_j53807350284714_1_alg».proof.Proof.RefRead
import proofs.«120864_j53807350284714_1_alg».proof.Proof.Entry
import proofs.«120864_j53807350284714_1_alg».proof.Proof.Halves

noncomputable section

namespace Cert.ReferenceIdeal.Decoded

open Cert.ReferenceIdeal Cert.ReferenceIdeal.Read Idealize.ShloMosaic Idealize.ShloMosaic.ValueIdx Cert.Boxes

/-- Column `j` of the reference's result is the low corner on axis `j`. -/
theorem result_low (x0 x1 : (⟨S2457600x4, .f32⟩ : BufTy).Contents (Elt Ideal)) (p : Fin 2457600) (j : Fin 2) :
    val_main_v32 (F := Ideal) x0 x1 (ix2 p ⟨j.val, by omega⟩)
      = lowCorner (x0 (ix2 p ⟨j.val, by omega⟩)) (x0 (ix2 p ⟨j.val + 2, by omega⟩))
          (x1 (ix2 p ⟨j.val, by omega⟩)) (x1 (ix2 p ⟨j.val + 2, by omega⟩)) := by
  simp only [val_main_v32_apply, val_main_v28_apply, val_main_v31_apply, val_main_v27_apply, val_main_v29_apply,
    val_main_v26_apply, val_main_v6_apply, val_main_v30_apply, val_main_cst_4_apply, val_main_v5_apply, val_main_cst_0_apply]
  simp only [val_main_v25, val_main_v4, join_left]
  simp only [val_main_v21_apply, val_main_v16_apply, val_main_v20_apply, val_main_v11_apply, val_main_v15_apply,
    val_main_v18_apply, val_main_v19_apply, val_main_cst_2_apply, val_main_v9_apply, val_main_v10_apply, val_main_cst_1_apply,
    val_main_v14_apply, val_main_v17_apply, val_main_v3_apply, val_main_v2_apply, val_main_cst_apply]
  simp only [val_main_v0, val_main_v1, val_main_v7, val_main_v8, val_main_v12, val_main_v13, leftHalf_apply, rightHalf_apply]
  exact lowCorner_blend _ _ _ _

/-- Column `j + 2` of the reference's result is the high corner on axis `j`. -/
theorem result_high (x0 x1 : (⟨S2457600x4, .f32⟩ : BufTy).Contents (Elt Ideal)) (p : Fin 2457600) (j : Fin 2) :
    val_main_v32 (F := Ideal) x0 x1 (ix2 p ⟨j.val + 2, by omega⟩)
      = highCorner (x0 (ix2 p ⟨j.val, by omega⟩)) (x0 (ix2 p ⟨j.val + 2, by omega⟩))
          (x1 (ix2 p ⟨j.val, by omega⟩)) (x1 (ix2 p ⟨j.val + 2, by omega⟩)) := by
  simp only [val_main_v32_apply, val_main_v28_apply, val_main_v31_apply, val_main_v27_apply, val_main_v29_apply,
    val_main_v26_apply, val_main_v6_apply, val_main_v30_apply, val_main_cst_4_apply, val_main_v5_apply, val_main_cst_0_apply]
  simp only [val_main_v25, val_main_v4, join_right]
  simp only [val_main_v24_apply, val_main_v16_apply, val_main_v23_apply, val_main_v11_apply, val_main_v15_apply,
    val_main_v18_apply, val_main_v22_apply, val_main_cst_3_apply, val_main_v9_apply, val_main_v10_apply, val_main_cst_1_apply,
    val_main_v14_apply, val_main_v17_apply, val_main_v3_apply, val_main_v2_apply, val_main_cst_apply]
  simp only [val_main_v0, val_main_v1, val_main_v7, val_main_v8, val_main_v12, val_main_v13, leftHalf_apply, rightHalf_apply]
  exact highCorner_blend _ _ _ _

/-- The reference's result is the decoding of its two arguments, row by row. -/
theorem result_eq (x0 x1 : (⟨S2457600x4, .f32⟩ : BufTy).Contents (Elt Ideal)) :
    val_main_v32 (F := Ideal) x0 x1 = decode (n := 2457600) x0 x1 := by
  funext i
  obtain ⟨p, q, rfl⟩ : ∃ (p : Fin 2457600) (q : Fin 4), i = ix2 p q := ⟨i 0, i 1, eq_ix2 i⟩
  rw [decode_apply]
  rcases column_cases q with ⟨j, rfl⟩ | ⟨j, rfl⟩
  · rw [result_low, decodeRow_low]
  · rw [result_high, decodeRow_high]

end Cert.ReferenceIdeal.Decoded

end
-- ==== Proof.lean ====
/-
  Box decoding with masking, certified against its reference over the extended reals.

  Both programs map two `2457600 × 4` arrays — per row, the offsets `(dx, dy, dw, dh)` and an anchor box
  `(x₀, y₀, x₁, y₁)` — to the decoded box's corners, row by row: on each axis the centre is
  `(a₀ + a₁)·½ + (a₁ − a₀)·dx`, the extent `(a₁ − a₀)·exp (min dw L)`, the corners centre ∓ extent/2, and an entry
  whose own offset lies below −10⁷ is replaced by −10⁸ (Proof/Entry.lean: `decode`). The kernel works on blocks of
  4096 rows, halves by the product with ½ and masks by a select; the reference works on the whole arrays, halves by
  the quotient by 2 and masks by the blend `value·[not masked] + sentinel·[masked]`. Both are `decode` of the arguments:
  the kernel block by block (Proof/KernelEntry.lean at an entry, Proof/KernelValue.lean from the blocks to the array),
  the reference entry by entry (Proof/RefEntry.lean); the two halvings and the two maskings agree on every extended
  real, so the precondition (finite inputs) is not used. The frames are the generated ones; the reference's frame is
  its run with the result dropped; no rewrite was applied in idealizing the kernel, so `preserves` is trivial.
-/
import proofs.«120864_j53807350284714_1_alg».proof.Defs
import proofs.«120864_j53807350284714_1_alg».proof.Proof.Gen.Kernel
import proofs.«120864_j53807350284714_1_alg».proof.Proof.Gen.Kernel.Frame
import proofs.«120864_j53807350284714_1_alg».proof.Proof.Gen.KernelIdeal
import proofs.«120864_j53807350284714_1_alg».proof.Proof.Gen.KernelIdeal.Frame
import proofs.«120864_j53807350284714_1_alg».proof.Proof.Gen.ReferenceIdeal
import proofs.«120864_j53807350284714_1_alg».proof.Proof.Gen.Pre_finite_inputs
import proofs.«120864_j53807350284714_1_alg».proof.Proof.KernelValue
import proofs.«120864_j53807350284714_1_alg».proof.Proof.RefEntry
import Idealize.ShloMosaic.Adequacy
import Idealize.ShloMosaic.Init

noncomputable section

namespace Cert.Proof

open Idealize.ShloMosaic Idealize.ShloMosaic.TcCoe Idealize.SL.Sem Cert.Boxes

/-- The kernel as printed runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The reference runs and keeps its arguments: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the decoding of the arguments in their result. -/
theorem algebraic : Cert.algebraic_KernelIdeal_ReferenceIdeal := by
  intro m ρ m' ρ' _ hagree
  refine ⟨fun c => decode (n := 2457600) (m ((c : Thread Cert.KernelIdeal.nD Cert.KernelIdeal.τ).loc Cert.KernelIdeal.main_arg0))
    (m ((c : Thread Cert.KernelIdeal.nD Cert.KernelIdeal.τ).loc Cert.KernelIdeal.main_arg1)), Cert.KernelIdeal.Decoded.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, Cert.ReferenceIdeal.Decoded.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
